-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .f32⟩
  | .hbm, ⟨75, _⟩ => ⟨S850000x1, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  A two-layer graph convolution as ONE function of its six arguments: the node features `x`, the edge list `e`
  (row 0 the sources, row 1 the targets), and the two layers' weights and biases.

  Each of the 800000 edges, and one self-loop per node, carries a message from its source to its target. A node's degree
  counts the messages it receives; a message's weight is `d(src)^(-1/2) · d(dst)^(-1/2)` (zero where the degree is not
  positive). One layer multiplies the features by its weight matrix, sends every node's row along each message scaled by the
  message's weight, sums at each target what arrives there, and adds the bias to every row; between the two layers the
  negative entries are cut to zero.

  The message passing (`srcs`, `dsts`, `wrap`, `norm`, `agg`) is spelt with the gather and scatter-add operations
  themselves, since both programs apply exactly these to the same edge list; the three dense steps — the matrix product, the
  bias row, the cut at zero — are written index by index on the extended reals, which is where the two programs differ in
  arrangement and agree in value.
-/
import proofs.«111916_j60876866453592_1_alg».proof.KernelIdeal
import Idealize.ShloMosaic.PureOps.Ideal
import Idealize.ShloMosaic.Lib.ValueIdx

noncomputable section

namespace Cert.Gcn

open Idealize.ShloMosaic Idealize.ShloMosaic.ValueIdx Cert.KernelIdeal
open Cert.KernelIdeal.Facts₀
open scoped BigOperators

/-! ## The dense steps, index by index -/

/-- The matrix product: entry `(r, j)` is the sum over `k` of `x (r, k) · w (k, j)`. -/
def mm (x : FVec Ideal S50000x128 .f32) (w : FVec Ideal S128x128 .f32) : FVec Ideal S50000x128 .f32 :=
  fun i => ∑ k : Fin 128, x (ix2 (n0 := 50000) (n1 := 128) (i 0) k) * w (ix2 (n0 := 128) (n1 := 128) k (i 1))

/-- The bias row added to every row: entry `(r, j)` gains `b j`. -/
def addRow (a : FVec Ideal S50000x128 .f32) (b : FVec Ideal S128 .f32) : FVec Ideal S50000x128 .f32 :=
  fun i => a i + b (ix1 (n := 128) (i 1))

/-- The same with the bias held as a one-row matrix: entry `(r, j)` gains `b (0, j)`. -/
def addRow1 (a : FVec Ideal S50000x128 .f32) (b : FVec Ideal S1x128 .f32) : FVec Ideal S50000x128 .f32 :=
  fun i => a i + b (ix2 (n0 := 1) (n1 := 128) 0 (i 1))

/-- The cut at zero: every entry replaced by the larger of itself and zero. -/
def relu (a : FVec Ideal S50000x128 .f32) : FVec Ideal S50000x128 .f32 :=
  fun i => max (a i) (Ideal.ofBits .f32 0x00000000#32)

variable [Cert.KernelIdeal.Facts]

/-! ## The message passing -/

/-- The sources of the 850000 messages: row 0 of the edge list, then the self-loops' `0 … 49999`. -/
def srcs (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Their targets: row 1 of the edge list, then `0 … 49999` again. -/
def dsts (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number read as an index: a negative one counts from the end. -/
def wrap (v : IVec S850000 32) : IVec S850000 32 :=
  select (cmpi .slt v (broadcastInDim S850000 ![] bcast_S_S850000 (constantI S_ 32 0#32))) (addi v (broadcastInDim S850000 ![] bcast_S_S850000 (constantI S_ 32 50000#32))) v

/-- A node's degree: one for every message whose target it is. -/
def deg (e : IVec S2x800000 32) : FVec Ideal S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (dsts e)) (broadcastInDim S850000 ![] bcast_S_S850000 (constant S_ .f32 0x3F800000#32))

/-- The degree to the power `-1/2`, and zero where the degree is not positive. -/
def dinv (e : IVec S2x800000 32) : FVec Ideal S50000 .f32 :=
  select (cmpf .ogt (deg e) (broadcastInDim S50000 ![] bcast_S_S50000 (constant S_ .f32 0x00000000#32))) (Host.rsqrt (deg e)) (broadcastInDim S50000 ![] bcast_S_S50000 (id (constant S_ .f32 0x00000000#32)))

/-- A message's weight: the product of that power at its source and at its target. -/
def norm (e : IVec S2x800000 32) : FVec Ideal S850000 .f32 :=
  mulf (Host.gather gather_S50000_S850000x1_S850000_n_0_n_n_0_1_1 (dinv e) (broadcastInDim S850000x1 ![0] bcast_S850000_S850000x1_0 (wrap (srcs e)))) (Host.gather gather_S50000_S850000x1_S850000_n_0_n_n_0_1_1 (dinv e) (broadcastInDim S850000x1 ![0] bcast_S850000_S850000x1_0 (wrap (dsts e))))

/-- One round of message passing over node rows `h`: each message carries its source's row times its weight, and every node
    sums what arrives. -/
def agg (e : IVec S2x800000 32) (h : FVec Ideal S50000x128 .f32) : FVec Ideal S50000x128 .f32 :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (dsts e)) (mulf (Host.gather gather_S50000x128_S850000x1_S850000x128_1_0_n_n_0_1_1128 h (broadcastInDim S850000x1 ![0] bcast_S850000_S850000x1_0 (wrap (srcs e)))) (broadcastInDim S850000x128 ![0, 1] bcast_S850000x1_S850000x128_0_1 (broadcastInDim S850000x1 ![0] bcast_S850000_S850000x1_0 (norm e))))

/-! ## The two layers -/

/-- The encoder's output. -/
def out (x : FVec Ideal S50000x128 .f32) (e : IVec S2x800000 32) (w1 : FVec Ideal S128x128 .f32) (b1 : FVec Ideal S128 .f32)
    (w2 : FVec Ideal S128x128 .f32) (b2 : FVec Ideal S128 .f32) : FVec Ideal S50000x128 .f32 :=
  addRow (agg e (mm (relu (addRow (agg e (mm x w1)) b1)) w2)) b2

end Cert.Gcn

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.Reg0.lean ====
/-
  The first matrix product's array after its region. Point t of the grid holds rows 2000·t … 2000·t+1999 of the left
  operand and the whole right operand; the format changes are the identity at the ideal values, so entry (p, q) of what
  the point writes back is Σ_k x(2000·t+p, k) · w(k, q): entry (2000·t+p, q) of the product of the two whole arrays.
  The 25 blocks of 2000 rows fill the 50000 rows (row r lies in block r / 2000), so the array ends holding the product.
-/
import proofs.«111916_j60876866453592_1_alg».proof.Proof.Gen.KernelIdeal.Frame
import proofs.«111916_j60876866453592_1_alg».proof.Proof.Spec
import Idealize.ShloMosaic.Lib.Pipeline.Value
import Idealize.ShloMosaic.Lib.ValueLayout
import Idealize.ShloMosaic.PureOps.Ideal.Laws
import proofs.«111916_j60876866453592_1_alg».proof.Proof.LibPlainDot

set_option maxRecDepth 16384

noncomputable section

namespace Cert.Gcn

open Idealize.ShloMosaic Idealize.ShloMosaic.ValueIdx Idealize.ShloMosaic.TcCoe Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The zero offsets of a whole-buffer access, as a constant function. -/
theorem zero_offsets0 : (![0, 0] : Fin 2 → Nat) = fun _ => 0 :=
  funext fun a => by match a with | ⟨0, _⟩ => rfl | ⟨1, _⟩ => rfl

/-- The block indices over the grid: the left operand's row block is the output's; the left operand's and the output's
    column block, and both block indices of the right operand, are 0; the output's row block is at most 24. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every one of the 25 row blocks is some point's. -/
theorem index_onto0 : ∀ q : Fin 25, ∃ t : Fin cfg0.N, win0_2.index t = ![q.val, 0] :=
  (by decide +kernel : ∀ q : Fin 25, ∃ t : Fin grid0.N, win0_2.index t = ![q.val, 0])

/-- The payload at entry `(p, q)` of a block: the two format changes are the identity, and the product into the zero
    accumulator is the sum over the contracted axis. -/
theorem pay0_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  exact PlainDot.matmul_zero_apply 2000 128 128 none _ _ (ix2 p q)

/-- When row `p` of the left block is row `i 0` of the array `X` and column `q` of the right block is column `i 1` of
    the array `W`, the payload's entry `(p, q)` is entry `i` of the product of `X` and `W`: the same sum, term by term. -/
theorem pay0_block (X : FVec Ideal S50000x128 .f32) (W : FVec Ideal S128x128 .f32)
    (x0 : Vec Ideal S2000x128 .f32) (x1 : Vec Ideal S128x128 .f32) (i : S50000x128.Idx) (p : Fin 2000) (q : Fin 128)
    (h0 : ∀ k : Fin 128, x0 (ix2 p k) = X (ix2 (n0 := 50000) (n1 := 128) (i 0) k))
    (h1 : ∀ k : Fin 128, x1 (ix2 k q) = W (ix2 (n0 := 128) (n1 := 128) k (i 1))) :
    k0_pay1 x0 x1 (ix2 p q) = mm X W i :=
  (pay0_apply x0 x1 p q).trans (Finset.sum_congr rfl fun k _ => by rw [h0 k, h1 k])

/-- What point `t` writes back is block `t` of the product of the two arrays as the region finds them: entry `(p, q)` of
    the block sits at row `(block index) · 2000 + p` and column `q` of the array; the left block's row `p` is that row of the
    left array (same row block, column block 0) and the right block is the whole right array (block `(0, 0)`). -/
theorem flushed0_eq (c : Dev nD) (t : Fin cfg0.N) :
    (dat0 (F := Ideal) V c).flushed 2 t
      = ((cfg0.win 2).blk t).view.read (Elt Ideal) (mm (V c main_arg0) (V c main_arg2)) := by
  show (cfg0.win 2).cut (grid0.coords t) ((dat0 (F := Ideal) V c).after 2 t) = _
  rw [after0_2]
  unfold out0_2
  rw [View.canon_unit_zero zero_offsets0]
  simp only [View.ld_unit_zero (S := S2000x128) zero_offsets0, View.ld_unit_zero (S := S128x128) zero_offsets0]
  obtain ⟨e0, e1, e2, e3, e4, e5⟩ := index_facts0 t
  funext j
  revert j
  show ∀ j : S2000x128.Idx, k0_pay1 (iblk0 V c 0 t) (iblk0 V c 1 t) j
      = mm (V c main_arg0) (V c main_arg2) (((cfg0.win 2).blk t).view.emb j)
  intro j
  obtain ⟨p, q, rfl⟩ : ∃ (p : Fin 2000) (q : Fin 128), j = ix2 p q := ⟨j 0, j 1, eq_ix2 j⟩
  refine pay0_block _ _ _ _ _ p q (fun k => ?_) (fun k => ?_)
  · show V c main_arg0 (((cfg0.win 0).blk t).view.emb (ix2 p k)) = _
    refine congrArg (V c main_arg0) (funext fun a => Fin.ext ?_)
    match a with
    | ⟨0, _⟩ =>
      show win0_0.index t (0 : Fin 2) * 2000 + 1 * p.val = win0_2.index t (0 : Fin 2) * 2000 + 1 * p.val
      omega
    | ⟨1, _⟩ =>
      show win0_0.index t (1 : Fin 2) * 128 + 1 * k.val = k.val
      omega
  · show V c main_arg2 (((cfg0.win 1).blk t).view.emb (ix2 k q)) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- Every index of the array is in some point's block: row `r` is in row block `r / 2000`, and 25 · 2000 = 50000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- The output array after the region is the product of the two input arrays as the region finds them. -/
theorem arr0 (c : Dev nD) : (dat0 (F := Ideal) V c).arrAt 2 cfg0.N = mm (V c main_arg0) (V c main_arg2) :=
  (dat0 (F := Ideal) V c).arrAt_eq_of_cover 2 (mm (V c main_arg0) (V c main_arg2)) (fun t _ => flushed0_eq V c t) cover0

end Cert.Gcn

end
-- ==== Proof.Reg1.lean ====
/-
  The second region adds the one bias row to every row of its block and floors the sum at zero.
  Its grid has 25 points; point t holds rows 2000·t … 2000·t+1999 of the [50000,128] operand and,
  at every point, the whole [1,128] bias row. Entry (p, q) of block t is therefore
  max (a (2000·t+p, q) + b (0, q)) 0, which is the entry of relu (addRow1 a b) at the array index
  (2000·t+p, q); the 25 row blocks tile the 50000 rows, so the array ends holding relu (addRow1 a b).
-/
import proofs.«111916_j60876866453592_1_alg».proof.Proof.Gen.KernelIdeal.Frame
import proofs.«111916_j60876866453592_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.Gcn

open Idealize.ShloMosaic Idealize.ShloMosaic.ValueIdx Idealize.ShloMosaic.TcCoe Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The body's accesses start at offset zero on both axes. -/
theorem zero_offsets1 : (![0, 0] : Fin 2 → Nat) = fun _ => 0 :=
  funext fun a => match a with | ⟨0, _⟩ => rfl | ⟨1, _⟩ => rfl

/-- The block index maps over the grid: the operand's row block is the output's, every column block index is 0,
    the bias row's block index is (0, 0) at every point, and the output's row block index is at most 24. -/
theorem blockIndex1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Every one of the 25 row blocks of the output is some point's. -/
theorem blockOnto1 : ∀ q : Fin 25, ∃ t : Fin cfg1.N, win1_2.index t = ![q.val, 0] :=
  (by decide +kernel : ∀ q : Fin 25, ∃ t : Fin grid1.N, win1_2.index t = ![q.val, 0])

/-- One entry of the body's result: the operand's entry plus the bias row's entry of the same column, floored at zero. -/
theorem biasRelu_entry (x0 : Vec Ideal S2000x128 .f32) (x1 : Vec Ideal S1x128 .f32) (p : Fin 2000) (q : Fin 128) :
    k1_pay1 x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S2000x128 x1 broadcasts_S1x128_S2000x128 (ix2 p q)) _ = _
  rw [broadcastTo_1b_ab_apply]
  rfl

/-- The same value is the entry of relu (addRow1 A B) at any array index i whose column is the bias entry's column. -/
theorem relu_addRow1_entry (A : FVec Ideal S50000x128 .f32) (B : FVec Ideal S1x128 .f32)
    (i0 i : S50000x128.Idx) (k : S1x128.Idx) (h0 : i0 = i) (hk : k = ix2 (n0 := 1) (n1 := 128) 0 (i 1)) :
    max (A i0 + B k) (Ideal.ofBits .f32 0x00000000#32) = relu (addRow1 A B) i := by
  subst h0 hk; rfl

/-- What point t writes back is block t of relu (addRow1 a b), a and b the arrays the region finds. -/
theorem flushed1_eq (c : Dev nD) (t : Fin cfg1.N) :
    (dat1 (F := Ideal) V c).flushed 2 t
      = ((cfg1.win 2).blk t).view.read (Elt Ideal) (relu (addRow1 (V c main_v43) (V c main_v44))) := by
  show (cfg1.win 2).cut (grid1.coords t) ((dat1 (F := Ideal) V c).after 2 t) = _
  rw [after1_2]
  unfold out1_2
  rw [View.canon_unit_zero zero_offsets1]
  simp only [View.ld_unit_zero (S := S2000x128) zero_offsets1, View.ld_unit_zero (S := S1x128) zero_offsets1]
  obtain ⟨e0, e1, e2, e3, e4, e5⟩ := blockIndex1 t
  funext j
  obtain ⟨p, q, rfl⟩ : ∃ (p : Fin 2000) (q : Fin 128), j = ix2 p q := ⟨j 0, j 1, eq_ix2 j⟩
  refine (biasRelu_entry _ _ p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (n0 := 1) (n1 := 128) 0 (((cfg1.win 2).blk t).view.emb (ix2 p q) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  exact relu_addRow1_entry (V c main_v43) (V c main_v44) _ _ _ h0 h1

/-- An index of the array is in point t's block iff each coordinate is in the block's range on its axis. -/
theorem mem_rows1 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v45).slice (win1_2.rect t)).set ↔ _
  rw [View.set_slice_whole, Rect.mem_set_unit]
  exact Iff.rfl

/-- Row r lies in block r / 2000, and 25 blocks of 2000 rows are all 50000 rows: every index is in some point's block. -/
theorem rows_cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := blockOnto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_rows1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The array after the region: relu (addRow1 a b) of the arrays it finds. -/
theorem arr1 (c : Dev nD) : (dat1 (F := Ideal) V c).arrAt 2 cfg1.N = relu (addRow1 (V c main_v43) (V c main_v44)) := by
  exact (dat1 (F := Ideal) V c).arrAt_eq_of_cover 2 (relu (addRow1 (V c main_v43) (V c main_v44)))
    (fun t _ => flushed1_eq V c t) rows_cover1

end Cert.Gcn

end
-- ==== Proof.Reg2.lean ====
/-
  The second matrix product's array after its region. Point t of the grid holds rows 2000·t … 2000·t+1999 of the left
  operand and the whole right operand; the reshape of a block to its own shape and the format changes are the identity
  at the ideal values, so entry (p, q) of what the point writes back is Σ_k x(2000·t+p, k) · w(k, q): entry (2000·t+p, q)
  of the product of the two whole arrays. The 25 blocks of 2000 rows fill the 50000 rows (row r lies in block r / 2000),
  so the array ends holding the product.
-/
import proofs.«111916_j60876866453592_1_alg».proof.Proof.Gen.KernelIdeal.Frame
import proofs.«111916_j60876866453592_1_alg».proof.Proof.Spec
import Idealize.ShloMosaic.Lib.Pipeline.Value
import Idealize.ShloMosaic.Lib.ValueLayout
import Idealize.ShloMosaic.PureOps.Ideal.Laws
import proofs.«111916_j60876866453592_1_alg».proof.Proof.LibPlainDot

set_option maxRecDepth 16384

noncomputable section

namespace Cert.Gcn

open Idealize.ShloMosaic Idealize.ShloMosaic.ValueIdx Idealize.ShloMosaic.TcCoe Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The zero offsets of a whole-buffer access, as a constant function. -/
theorem zero_offsets2 : (![0, 0] : Fin 2 → Nat) = fun _ => 0 :=
  funext fun a => by match a with | ⟨0, _⟩ => rfl | ⟨1, _⟩ => rfl

/-- The block indices over the grid: the left operand's row block is the output's; the left operand's and the output's
    column block, and both block indices of the right operand, are 0; the output's row block is at most 24. -/
theorem index_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 24 :=
  (by decide +kernel : ∀ t : Fin grid2.N, _)

/-- Every one of the 25 row blocks is some point's. -/
theorem index_onto2 : ∀ q : Fin 25, ∃ t : Fin cfg2.N, win2_2.index t = ![q.val, 0] :=
  (by decide +kernel : ∀ q : Fin 25, ∃ t : Fin grid2.N, win2_2.index t = ![q.val, 0])

/-- The payload at entry `(p, q)` of a block: the reshape to the same shape and the two format changes are the identity,
    and the product into the zero accumulator is the sum over the contracted axis. -/
theorem pay2_apply (x0 : Vec Ideal S2000x128 .f32) (x1 : Vec Ideal S128x128 .f32) (p : Fin 2000) (q : Fin 128) :
    k2_pay1 x0 x1 (ix2 p q) = ∑ k : Fin 128, x0 (ix2 p k) * x1 (ix2 k q) := by
  unfold k2_pay1
  refine (PlainDot.matmul_zero_apply 2000 128 128 none _ _ (ix2 p q)).trans ?_
  refine Finset.sum_congr rfl fun k _ => ?_
  show shapeCast S2000x128 x0 shapeCasts_S2000x128_S2000x128 (ix2 p k) * x1 (ix2 k q) = _
  rw [shapeCast_self]

/-- When row `p` of the left block is row `i 0` of the array `X` and column `q` of the right block is column `i 1` of
    the array `W`, the payload's entry `(p, q)` is entry `i` of the product of `X` and `W`: the same sum, term by term. -/
theorem pay2_block (X : FVec Ideal S50000x128 .f32) (W : FVec Ideal S128x128 .f32)
    (x0 : Vec Ideal S2000x128 .f32) (x1 : Vec Ideal S128x128 .f32) (i : S50000x128.Idx) (p : Fin 2000) (q : Fin 128)
    (h0 : ∀ k : Fin 128, x0 (ix2 p k) = X (ix2 (n0 := 50000) (n1 := 128) (i 0) k))
    (h1 : ∀ k : Fin 128, x1 (ix2 k q) = W (ix2 (n0 := 128) (n1 := 128) k (i 1))) :
    k2_pay1 x0 x1 (ix2 p q) = mm X W i :=
  (pay2_apply x0 x1 p q).trans (Finset.sum_congr rfl fun k _ => by rw [h0 k, h1 k])

/-- What point `t` writes back is block `t` of the product of the two arrays as the region finds them: entry `(p, q)` of
    the block sits at row `(block index) · 2000 + p` and column `q` of the array; the left block's row `p` is that row of the
    left array (same row block, column block 0) and the right block is the whole right array (block `(0, 0)`). -/
theorem flushed2_eq (c : Dev nD) (t : Fin cfg2.N) :
    (dat2 (F := Ideal) V c).flushed 2 t
      = ((cfg2.win 2).blk t).view.read (Elt Ideal) (mm (V c main_v45) (V c main_arg4)) := by
  show (cfg2.win 2).cut (grid2.coords t) ((dat2 (F := Ideal) V c).after 2 t) = _
  rw [after2_2]
  unfold out2_2
  rw [View.canon_unit_zero zero_offsets2]
  simp only [View.ld_unit_zero (S := S2000x128) zero_offsets2, View.ld_unit_zero (S := S128x128) zero_offsets2]
  obtain ⟨e0, e1, e2, e3, e4, e5⟩ := index_facts2 t
  funext j
  revert j
  show ∀ j : S2000x128.Idx, k2_pay1 (iblk2 V c 0 t) (iblk2 V c 1 t) j
      = mm (V c main_v45) (V c main_arg4) (((cfg2.win 2).blk t).view.emb j)
  intro j
  obtain ⟨p, q, rfl⟩ : ∃ (p : Fin 2000) (q : Fin 128), j = ix2 p q := ⟨j 0, j 1, eq_ix2 j⟩
  refine pay2_block _ _ _ _ _ p q (fun k => ?_) (fun k => ?_)
  · show V c main_v45 (((cfg2.win 0).blk t).view.emb (ix2 p k)) = _
    refine congrArg (V c main_v45) (funext fun a => Fin.ext ?_)
    match a with
    | ⟨0, _⟩ =>
      show win2_0.index t (0 : Fin 2) * 2000 + 1 * p.val = win2_2.index t (0 : Fin 2) * 2000 + 1 * p.val
      omega
    | ⟨1, _⟩ =>
      show win2_0.index t (1 : Fin 2) * 128 + 1 * k.val = k.val
      omega
  · show V c main_arg4 (((cfg2.win 1).blk t).view.emb (ix2 k q)) = _
    refine congrArg (V c main_arg4) (funext fun a => Fin.ext ?_)
    match a with
    | ⟨0, _⟩ =>
      show win2_1.index t (0 : Fin 2) * 128 + 1 * k.val = k.val
      omega
    | ⟨1, _⟩ =>
      show win2_1.index t (1 : Fin 2) * 128 + 1 * q.val = win2_2.index t (1 : Fin 2) * 128 + 1 * q.val
      omega

/-- An index of the array is in point `t`'s block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v46).slice (win2_2.rect t)).set ↔ _
  rw [View.set_slice_whole, Rect.mem_set_unit]
  exact Iff.rfl

/-- Every index of the array is in some point's block: row `r` is in row block `r / 2000`, and 25 · 2000 = 50000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 128 ≤ (i 1).val ∧ (i 1).val < win2_2.index t (1 : Fin 2) * 128 + 128
    omega

/-- The output array after the region is the product of the two input arrays as the region finds them. -/
theorem arr2 (c : Dev nD) : (dat2 (F := Ideal) V c).arrAt 2 cfg2.N = mm (V c main_v45) (V c main_arg4) :=
  (dat2 (F := Ideal) V c).arrAt_eq_of_cover 2 (mm (V c main_v45) (V c main_arg4)) (fun t _ => flushed2_eq V c t) cover2

end Cert.Gcn

end
-- ==== Proof.Reg3.lean ====
/-
  The fourth region adds the one bias row to every row of its block.
  Its grid has 25 points; point t holds rows 2000·t … 2000·t+1999 of the [50000,128] operand and,
  at every point, the whole [1,128] bias row. Entry (p, q) of block t is therefore
  a (2000·t+p, q) + b (0, q), which is the entry of addRow1 a b at the array index (2000·t+p, q);
  the 25 row blocks tile the 50000 rows, so the array ends holding addRow1 a b.
-/
import proofs.«111916_j60876866453592_1_alg».proof.Proof.Gen.KernelIdeal.Frame
import proofs.«111916_j60876866453592_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.Gcn

open Idealize.ShloMosaic Idealize.ShloMosaic.ValueIdx Idealize.ShloMosaic.TcCoe Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The body's accesses start at offset zero on both axes. -/
theorem zero_offsets3 : (![0, 0] : Fin 2 → Nat) = fun _ => 0 :=
  funext fun a => match a with | ⟨0, _⟩ => rfl | ⟨1, _⟩ => rfl

/-- The block index maps over the grid: the operand's row block is the output's, every column block index is 0,
    the bias row's block index is (0, 0) at every point, and the output's row block index is at most 24. -/
theorem blockIndex3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 24 :=
  (by decide +kernel : ∀ t : Fin grid3.N, _)

/-- Every one of the 25 row blocks of the output is some point's. -/
theorem blockOnto3 : ∀ q : Fin 25, ∃ t : Fin cfg3.N, win3_2.index t = ![q.val, 0] :=
  (by decide +kernel : ∀ q : Fin 25, ∃ t : Fin grid3.N, win3_2.index t = ![q.val, 0])

/-- One entry of the body's result: the operand's entry plus the bias row's entry of the same column. -/
theorem biasAdd_entry (x0 : Vec Ideal S2000x128 .f32) (x1 : Vec Ideal S1x128 .f32) (p : Fin 2000) (q : Fin 128) :
    k3_pay1 x0 x1 (ix2 p q) = x0 (ix2 p q) + x1 (ix2 (0 : Fin 1) q) := by
  unfold k3_pay1
  rw [shapeCast_self, shapeCast_self]
  exact congrArg (fun z => x0 (ix2 p q) + z) (broadcastTo_1b_ab_apply x1 broadcasts_S1x128_S2000x128 p q)

/-- The same value is the entry of addRow1 A B at any array index i whose column is the bias entry's column. -/
theorem addRow1_entry (A : FVec Ideal S50000x128 .f32) (B : FVec Ideal S1x128 .f32)
    (i0 i : S50000x128.Idx) (k : S1x128.Idx) (h0 : i0 = i) (hk : k = ix2 (n0 := 1) (n1 := 128) 0 (i 1)) :
    A i0 + B k = addRow1 A B i := by
  subst h0 hk; rfl

/-- What point t writes back is block t of addRow1 a b, a and b the arrays the region finds. -/
theorem flushed3_eq (c : Dev nD) (t : Fin cfg3.N) :
    (dat3 (F := Ideal) V c).flushed 2 t
      = ((cfg3.win 2).blk t).view.read (Elt Ideal) (addRow1 (V c main_v59) (V c main_v60)) := by
  show (cfg3.win 2).cut (grid3.coords t) ((dat3 (F := Ideal) V c).after 2 t) = _
  rw [after3_2]
  unfold out3_2
  rw [View.canon_unit_zero zero_offsets3]
  simp only [View.ld_unit_zero (S := S2000x128) zero_offsets3, View.ld_unit_zero (S := S1x128) zero_offsets3]
  obtain ⟨e0, e1, e2, e3, e4, e5⟩ := blockIndex3 t
  funext j
  obtain ⟨p, q, rfl⟩ : ∃ (p : Fin 2000) (q : Fin 128), j = ix2 p q := ⟨j 0, j 1, eq_ix2 j⟩
  refine (biasAdd_entry _ _ p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q)
      = ix2 (n0 := 1) (n1 := 128) 0 (((cfg3.win 2).blk t).view.emb (ix2 p q) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  exact addRow1_entry (V c main_v59) (V c main_v60) _ _ _ h0 h1

/-- An index of the array is in point t's block iff each coordinate is in the block's range on its axis. -/
theorem mem_rows3 (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v61).slice (win3_2.rect t)).set ↔ _
  rw [View.set_slice_whole, Rect.mem_set_unit]
  exact Iff.rfl

/-- Row r lies in block r / 2000, and 25 blocks of 2000 rows are all 50000 rows: every index is in some point's block. -/
theorem rows_cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := blockOnto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_rows3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The array after the region: addRow1 a b of the arrays it finds. -/
theorem arr3 (c : Dev nD) : (dat3 (F := Ideal) V c).arrAt 2 cfg3.N = addRow1 (V c main_v59) (V c main_v60) := by
  exact (dat3 (F := Ideal) V c).arrAt_eq_of_cover 2 (addRow1 (V c main_v59) (V c main_v60))
    (fun t _ => flushed3_eq V c t) rows_cover3

end Cert.Gcn

end
-- ==== Proof.KValue.lean ====
/-
  What the kernel's program leaves in its result array, read back boundary by boundary.

  The program alternates stretches of gather / scatter-add operations over the edge list with four row-blocked
  regions. The contents of every array at each boundary are a fold from the launch memory; here each array that a later
  step reads is named at each boundary:
    * before the first region the sources, the targets and the message weights are functions of the edge list alone
      (`srcs`, `dsts`, `norm`), and the six arguments are as launched;
    * a product region leaves `mm` of the two arrays it reads, a bias region `addRow1` (then `relu` in the first layer)
      of the two it reads, every other array as it was;
    * a stretch between regions leaves one round of message passing (`agg`) over the product before it, and the bias
      as a one-row matrix, which read at `(0, j)` is the bias at `j`.
  Composed, the result array holds `out` of the six arguments.
-/
import proofs.«111916_j60876866453592_1_alg».proof.Proof.Gen.KernelIdeal.Frame
import proofs.«111916_j60876866453592_1_alg».proof.Proof.Spec
import proofs.«111916_j60876866453592_1_alg».proof.Proof.Reg0
import proofs.«111916_j60876866453592_1_alg».proof.Proof.Reg1
import proofs.«111916_j60876866453592_1_alg».proof.Proof.Reg2
import proofs.«111916_j60876866453592_1_alg».proof.Proof.Reg3
import Idealize.ShloMosaic.Lib.StableHlo.Run
import Idealize.ShloMosaic.Lib.ValueLayout

set_option maxRecDepth 16384

noncomputable section

namespace Cert.Gcn

open Idealize.ShloMosaic Idealize.ShloMosaic.ValueIdx Idealize.ShloMosaic.TcCoe Idealize.SL.Sem Idealize.ShloMosaic.StableHlo
open Cert.KernelIdeal Cert.KernelIdeal.Gen

/-! ## The bias as a one-row matrix -/

/-- Adding the bias held as a `[1, 128]` matrix is adding the bias: the matrix at `(0, j)` is the bias at `j`. -/
theorem addRow1_cast (a : FVec Ideal S50000x128 .f32) (b : FVec Ideal S128 .f32) (h : S128.ShapeCasts S1x128) :
    addRow1 a (shapeCast S1x128 b h) = addRow a b := by
  funext i
  unfold addRow1 addRow
  exact congrArg (a i + ·) (shapeCast_a_1a_apply b h 0 (i 1))

/-! ## One round of message passing, over the four arrays it reads -/

/-- The rows `h` sent along the messages with sources `s`, targets `d` and weights `n`, summed at the targets. -/
def aggOf (h : FVec Ideal S50000x128 .f32) (s d : IVec S850000 32) (n : FVec Ideal S850000 .f32) : FVec Ideal S50000x128 .f32 :=
  Host.scatterAdd scatter_S50000x128_S850000x1_S850000x128_1_0_0_1 (broadcastInDim S50000x128 ![] Facts₀.bcast_S_S50000x128 (constant S_ .f32 0x00000000#32)) (broadcastInDim S850000x1 ![0] Facts₀.bcast_S850000_S850000x1_0 d) (mulf (Host.gather gather_S50000x128_S850000x1_S850000x128_1_0_n_n_0_1_1128 h (broadcastInDim S850000x1 ![0] Facts₀.bcast_S850000_S850000x1_0 (wrap s))) (broadcastInDim S850000x128 ![0, 1] Facts₀.bcast_S850000x1_S850000x128_0_1 (broadcastInDim S850000x1 ![0] Facts₀.bcast_S850000_S850000x1_0 n)))

/-- A round over the edge list's own sources, targets and weights. -/
theorem agg_as_aggOf (e : IVec S2x800000 32) (h : FVec Ideal S50000x128 .f32) : agg e h = aggOf h (srcs e) (dsts e) (norm e) := rfl

/-! ## The host stretches, over any contents `W` they start from -/

section Stretches

variable (W : Valuation τ sig (Elt Ideal))

/-- Before the first region: the sources are a function of the edge list, -/
theorem pre_srcs : after hostOps0_2 (after hostOps0_1 (after hostOps0 W)) (Proc.devRef .tc main_v3) = srcs (W (Proc.devRef .tc main_arg1)) := by
  after_results
  rfl
/-- so are the targets, -/
theorem pre_dsts : after hostOps0_2 (after hostOps0_1 (after hostOps0 W)) (Proc.devRef .tc main_v6) = dsts (W (Proc.devRef .tc main_arg1)) := by
  after_results
  rfl
/-- The first stretch alone: where the degree is positive, -/
theorem first_pos : after hostOps0 W (Proc.devRef .tc main_v12) = cmpf .ogt (deg (W (Proc.devRef .tc main_arg1))) (broadcastInDim S50000 ![] Facts₀.bcast_S_S50000 (constant S_ .f32 0x00000000#32)) := by
  after_results
  rfl
/-- its power `-1/2`, -/
theorem first_rsqrt : after hostOps0 W (Proc.devRef .tc main_v13) = Host.rsqrt (deg (W (Proc.devRef .tc main_arg1))) := by
  after_results
  rfl
/-- the zero that stands where the degree is not positive, -/
theorem first_zero : after hostOps0 W (Proc.devRef .tc main_cst_2) = (constant S_ .f32 0x00000000#32 : FVec Ideal S_ .f32) := by
  after_results
/-- the sources and the targets. -/
theorem first_srcs : after hostOps0 W (Proc.devRef .tc main_v3) = srcs (W (Proc.devRef .tc main_arg1)) := by
  after_results
  rfl
theorem first_dsts : after hostOps0 W (Proc.devRef .tc main_v6) = dsts (W (Proc.devRef .tc main_arg1)) := by
  after_results
  rfl
/-- The choice between the power and the zero, over whatever the three hold. -/
theorem choice_eq : after hostOps0_1 W (Proc.devRef .tc main_v14) = select (W (Proc.devRef .tc main_v12)) (W (Proc.devRef .tc main_v13)) (broadcastInDim S50000 ![] Facts₀.bcast_S_S50000 (id (W (Proc.devRef .tc main_cst_2)))) := by
  after_results
  rfl
theorem choice_srcs : after hostOps0_1 W (Proc.devRef .tc main_v3) = W (Proc.devRef .tc main_v3) := by
  after_results
theorem choice_dsts : after hostOps0_1 W (Proc.devRef .tc main_v6) = W (Proc.devRef .tc main_v6) := by
  after_results
set_option maxHeartbeats 4000000 in
/-- A message's weight from the chosen powers at its two ends. -/
theorem weights_eq : after hostOps0_2 W (Proc.devRef .tc main_v29) = (mulf (Host.gather gather_S50000_S850000x1_S850000_n_0_n_n_0_1_1 (W (Proc.devRef .tc main_v14) : FVec Ideal S50000 .f32) (broadcastInDim S850000x1 ![0] Facts₀.bcast_S850000_S850000x1_0 (wrap (W (Proc.devRef .tc main_v3))))) (Host.gather gather_S50000_S850000x1_S850000_n_0_n_n_0_1_1 (W (Proc.devRef .tc main_v14) : FVec Ideal S50000 .f32) (broadcastInDim S850000x1 ![0] Facts₀.bcast_S850000_S850000x1_0 (wrap (W (Proc.devRef .tc main_v6))))) : FVec Ideal S850000 .f32) := by
  after_results_simp
  rfl
/-- Before the first region the message weights are a function of the edge list. -/
theorem pre_norm : after hostOps0_2 (after hostOps0_1 (after hostOps0 W)) (Proc.devRef .tc main_v29) = norm (W (Proc.devRef .tc main_arg1)) := by
  rw [weights_eq, choice_eq, choice_srcs, choice_dsts, first_pos, first_rsqrt, first_zero, first_srcs, first_dsts]
  rfl
/-- No operation before the first region writes argument 0. -/
theorem pre_arg0 : after hostOps0_2 (after hostOps0_1 (after hostOps0 W)) (Proc.devRef .tc main_arg0) = W (Proc.devRef .tc main_arg0) := by
  after_results
/-- No operation before the first region writes argument 2. -/
theorem pre_arg2 : after hostOps0_2 (after hostOps0_1 (after hostOps0 W)) (Proc.devRef .tc main_arg2) = W (Proc.devRef .tc main_arg2) := by
  after_results
/-- No operation before the first region writes argument 3. -/
theorem pre_arg3 : after hostOps0_2 (after hostOps0_1 (after hostOps0 W)) (Proc.devRef .tc main_arg3) = W (Proc.devRef .tc main_arg3) := by
  after_results
/-- No operation before the first region writes argument 4. -/
theorem pre_arg4 : after hostOps0_2 (after hostOps0_1 (after hostOps0 W)) (Proc.devRef .tc main_arg4) = W (Proc.devRef .tc main_arg4) := by
  after_results
/-- No operation before the first region writes argument 5. -/
theorem pre_arg5 : after hostOps0_2 (after hostOps0_1 (after hostOps0 W)) (Proc.devRef .tc main_arg5) = W (Proc.devRef .tc main_arg5) := by
  after_results

set_option maxHeartbeats 4000000 in
/-- Between the first two regions: one round of message passing over the first product, -/
theorem mid_agg : after hostOps1 W (Proc.devRef .tc main_v43) = aggOf (W (Proc.devRef .tc main_v30)) (W (Proc.devRef .tc main_v3)) (W (Proc.devRef .tc main_v6)) (W (Proc.devRef .tc main_v29)) := by
  after_results_simp
  rfl
/-- the first bias as a one-row matrix, -/
theorem mid_bias : after hostOps1 W (Proc.devRef .tc main_v44) = shapeCast S1x128 (W (Proc.devRef .tc main_arg3)) Facts₀.shapeCasts_S128_S1x128 := by
  after_results
  rfl
/-- and `main_v3` untouched. -/
theorem mid_v3 : after hostOps1 W (Proc.devRef .tc main_v3) = W (Proc.devRef .tc main_v3) := by
  after_results
/-- and `main_v6` untouched. -/
theorem mid_v6 : after hostOps1 W (Proc.devRef .tc main_v6) = W (Proc.devRef .tc main_v6) := by
  after_results
/-- and `main_v29` untouched. -/
theorem mid_v29 : after hostOps1 W (Proc.devRef .tc main_v29) = W (Proc.devRef .tc main_v29) := by
  after_results
/-- and `main_arg4` untouched. -/
theorem mid_arg4 : after hostOps1 W (Proc.devRef .tc main_arg4) = W (Proc.devRef .tc main_arg4) := by
  after_results
/-- and `main_arg5` untouched. -/
theorem mid_arg5 : after hostOps1 W (Proc.devRef .tc main_arg5) = W (Proc.devRef .tc main_arg5) := by
  after_results

set_option maxHeartbeats 4000000 in
/-- Before the last region: one round of message passing over the second product, -/
theorem last_agg : after hostOps3 W (Proc.devRef .tc main_v59) = aggOf (W (Proc.devRef .tc main_v46)) (W (Proc.devRef .tc main_v3)) (W (Proc.devRef .tc main_v6)) (W (Proc.devRef .tc main_v29)) := by
  after_results_simp
  rfl
/-- and the second bias as a one-row matrix. -/
theorem last_bias : after hostOps3 W (Proc.devRef .tc main_v60) = shapeCast S1x128 (W (Proc.devRef .tc main_arg5)) Facts₀.shapeCasts_S128_S1x128 := by
  after_results
  rfl

end Stretches

/-! ## The boundaries, from the launch to the return -/

section Boundaries

variable (m : (ℓ : Loc nD τ sig) → Buf (Elt Ideal) ℓ) (ρ : Dev nD → PrngReg) (c : Dev nD)

/-! ### At the first region's entry -/

theorem at3_srcs : W3 m ρ c (Proc.devRef .tc main_v3) = srcs (m ((c : Thread nD τ).loc main_arg1)) := pre_srcs (W0 m ρ c)
theorem at3_dsts : W3 m ρ c (Proc.devRef .tc main_v6) = dsts (m ((c : Thread nD τ).loc main_arg1)) := pre_dsts (W0 m ρ c)
theorem at3_norm : W3 m ρ c (Proc.devRef .tc main_v29) = norm (m ((c : Thread nD τ).loc main_arg1)) := pre_norm (W0 m ρ c)
theorem at3_arg0 : W3 m ρ c (Proc.devRef .tc main_arg0) = (m ((c : Thread nD τ).loc main_arg0)) := pre_arg0 (W0 m ρ c)
theorem at3_arg2 : W3 m ρ c (Proc.devRef .tc main_arg2) = (m ((c : Thread nD τ).loc main_arg2)) := pre_arg2 (W0 m ρ c)
theorem at3_arg3 : W3 m ρ c (Proc.devRef .tc main_arg3) = (m ((c : Thread nD τ).loc main_arg3)) := pre_arg3 (W0 m ρ c)
theorem at3_arg4 : W3 m ρ c (Proc.devRef .tc main_arg4) = (m ((c : Thread nD τ).loc main_arg4)) := pre_arg4 (W0 m ρ c)
theorem at3_arg5 : W3 m ρ c (Proc.devRef .tc main_arg5) = (m ((c : Thread nD τ).loc main_arg5)) := pre_arg5 (W0 m ρ c)

/-! ### After the first product -/

/-- The first region leaves the product of the features and the first weight matrix. -/
theorem at4_prod : W4 m ρ c (Proc.devRef .tc main_v30) = mm (m ((c : Thread nD τ).loc main_arg0)) (m ((c : Thread nD τ).loc main_arg2)) :=
  (W4_arr m ρ c 2).trans ((arr0 (V3 m ρ) c).trans (congrArg₂ mm (at3_arg0 m ρ c) (at3_arg2 m ρ c)))
theorem at4_srcs : W4 m ρ c (Proc.devRef .tc main_v3) = srcs (m ((c : Thread nD τ).loc main_arg1)) := (W4_of_ne m ρ c main_v3 (by decide)).trans (at3_srcs m ρ c)
theorem at4_dsts : W4 m ρ c (Proc.devRef .tc main_v6) = dsts (m ((c : Thread nD τ).loc main_arg1)) := (W4_of_ne m ρ c main_v6 (by decide)).trans (at3_dsts m ρ c)
theorem at4_norm : W4 m ρ c (Proc.devRef .tc main_v29) = norm (m ((c : Thread nD τ).loc main_arg1)) := (W4_of_ne m ρ c main_v29 (by decide)).trans (at3_norm m ρ c)
theorem at4_arg3 : W4 m ρ c (Proc.devRef .tc main_arg3) = (m ((c : Thread nD τ).loc main_arg3)) := (W4_of_ne m ρ c main_arg3 (by decide)).trans (at3_arg3 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)

/-! ### At the first bias region's entry -/

/-- The first round of message passing, over the first product. -/
theorem at5_agg : W5 m ρ c (Proc.devRef .tc main_v43) = agg (m ((c : Thread nD τ).loc main_arg1)) (mm (m ((c : Thread nD τ).loc main_arg0)) (m ((c : Thread nD τ).loc main_arg2))) :=
  (mid_agg (W4 m ρ c)).trans (by rw [at4_prod m ρ c, at4_srcs m ρ c, at4_dsts m ρ c, at4_norm m ρ c, agg_as_aggOf])
theorem at5_bias : W5 m ρ c (Proc.devRef .tc main_v44) = shapeCast S1x128 (m ((c : Thread nD τ).loc main_arg3)) Facts₀.shapeCasts_S128_S1x128 :=
  (mid_bias (W4 m ρ c)).trans (by rw [at4_arg3 m ρ c])
theorem at5_srcs : W5 m ρ c (Proc.devRef .tc main_v3) = srcs (m ((c : Thread nD τ).loc main_arg1)) := (mid_v3 (W4 m ρ c)).trans (at4_srcs m ρ c)
theorem at5_dsts : W5 m ρ c (Proc.devRef .tc main_v6) = dsts (m ((c : Thread nD τ).loc main_arg1)) := (mid_v6 (W4 m ρ c)).trans (at4_dsts m ρ c)
theorem at5_norm : W5 m ρ c (Proc.devRef .tc main_v29) = norm (m ((c : Thread nD τ).loc main_arg1)) := (mid_v29 (W4 m ρ c)).trans (at4_norm m ρ c)
theorem at5_arg4 : W5 m ρ c (Proc.devRef .tc main_arg4) = (m ((c : Thread nD τ).loc main_arg4)) := (mid_arg4 (W4 m ρ c)).trans (at4_arg4 m ρ c)
theorem at5_arg5 : W5 m ρ c (Proc.devRef .tc main_arg5) = (m ((c : Thread nD τ).loc main_arg5)) := (mid_arg5 (W4 m ρ c)).trans (at4_arg5 m ρ c)

/-! ### After the first layer -/

/-- The first layer's output: the bias added and the negative entries cut. -/
def layer1 : FVec Ideal S50000x128 .f32 := relu (addRow (agg (m ((c : Thread nD τ).loc main_arg1)) (mm (m ((c : Thread nD τ).loc main_arg0)) (m ((c : Thread nD τ).loc main_arg2)))) (m ((c : Thread nD τ).loc main_arg3)))

theorem at6_layer : W6 m ρ c (Proc.devRef .tc main_v45) = layer1 m c :=
  (W6_arr m ρ c 2).trans ((arr1 (V5 m ρ) c).trans
    ((congrArg relu (congrArg₂ addRow1 (at5_agg m ρ c) (at5_bias m ρ c))).trans (congrArg relu (addRow1_cast _ _ _))))
theorem at6_srcs : W6 m ρ c (Proc.devRef .tc main_v3) = srcs (m ((c : Thread nD τ).loc main_arg1)) := (W6_of_ne m ρ c main_v3 (by decide)).trans (at5_srcs m ρ c)
theorem at6_dsts : W6 m ρ c (Proc.devRef .tc main_v6) = dsts (m ((c : Thread nD τ).loc main_arg1)) := (W6_of_ne m ρ c main_v6 (by decide)).trans (at5_dsts m ρ c)
theorem at6_norm : W6 m ρ c (Proc.devRef .tc main_v29) = norm (m ((c : Thread nD τ).loc main_arg1)) := (W6_of_ne m ρ c main_v29 (by decide)).trans (at5_norm m ρ c)
theorem at6_arg4 : W6 m ρ c (Proc.devRef .tc main_arg4) = (m ((c : Thread nD τ).loc main_arg4)) := (W6_of_ne m ρ c main_arg4 (by decide)).trans (at5_arg4 m ρ c)
theorem at6_arg5 : W6 m ρ c (Proc.devRef .tc main_arg5) = (m ((c : Thread nD τ).loc main_arg5)) := (W6_of_ne m ρ c main_arg5 (by decide)).trans (at5_arg5 m ρ c)

/-! ### After the second product -/

theorem at7_prod : W7 m ρ c (Proc.devRef .tc main_v46) = mm (layer1 m c) (m ((c : Thread nD τ).loc main_arg4)) :=
  (W7_arr m ρ c 2).trans ((arr2 (V6 m ρ) c).trans (congrArg₂ mm (at6_layer m ρ c) (at6_arg4 m ρ c)))
theorem at7_srcs : W7 m ρ c (Proc.devRef .tc main_v3) = srcs (m ((c : Thread nD τ).loc main_arg1)) := (W7_of_ne m ρ c main_v3 (by decide)).trans (at6_srcs m ρ c)
theorem at7_dsts : W7 m ρ c (Proc.devRef .tc main_v6) = dsts (m ((c : Thread nD τ).loc main_arg1)) := (W7_of_ne m ρ c main_v6 (by decide)).trans (at6_dsts m ρ c)
theorem at7_norm : W7 m ρ c (Proc.devRef .tc main_v29) = norm (m ((c : Thread nD τ).loc main_arg1)) := (W7_of_ne m ρ c main_v29 (by decide)).trans (at6_norm m ρ c)
theorem at7_arg5 : W7 m ρ c (Proc.devRef .tc main_arg5) = (m ((c : Thread nD τ).loc main_arg5)) := (W7_of_ne m ρ c main_arg5 (by decide)).trans (at6_arg5 m ρ c)

/-! ### At the last region's entry, and the result -/

theorem at8_agg : W8 m ρ c (Proc.devRef .tc main_v59) = agg (m ((c : Thread nD τ).loc main_arg1)) (mm (layer1 m c) (m ((c : Thread nD τ).loc main_arg4))) :=
  (last_agg (W7 m ρ c)).trans (by rw [at7_prod m ρ c, at7_srcs m ρ c, at7_dsts m ρ c, at7_norm m ρ c, agg_as_aggOf])
theorem at8_bias : W8 m ρ c (Proc.devRef .tc main_v60) = shapeCast S1x128 (m ((c : Thread nD τ).loc main_arg5)) Facts₀.shapeCasts_S128_S1x128 :=
  (last_bias (W7 m ρ c)).trans (by rw [at7_arg5 m ρ c])

/-- THE RESULT ARRAY after the run is `out` of the six arguments as launched. -/
theorem kernel_out : W9 m ρ c (Proc.devRef .tc main_v61) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((arr3 (V8 m ρ) c).trans
    ((congrArg₂ addRow1 (at8_agg m ρ c) (at8_bias m ρ c)).trans (addRow1_cast _ _ _)))

end Boundaries

end Cert.Gcn

end
-- ==== Proof.RefValue.lean ====
/-
  The reference program's result, one composed term of its six arguments, is the two-layer graph convolution `out`.
  Three steps are read index by index at the ideal values: the general product with the plain dimension numbers is
  the sum over `k` of `x (r, k) · w (k, j)`; adding a bias broadcast to one row and then to every row adds `b j` to
  entry `(r, j)`; the maximum with the broadcast zero is the cut at zero. The rest — the two edge lists, the index wrap,
  the degrees, the message weights, gather and scatter-add — is the same operation on the same operands in both
  spellings: the reference's shape records and the kernel's have equal fields, so those parts agree by unfolding.
-/
import proofs.«111916_j60876866453592_1_alg».proof.Proof.RefRun
import proofs.«111916_j60876866453592_1_alg».proof.Proof.Gen.KernelIdeal
import proofs.«111916_j60876866453592_1_alg».proof.Proof.Spec
import proofs.«111916_j60876866453592_1_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.Gcn

open Idealize.ShloMosaic Idealize.ShloMosaic.ValueIdx Idealize.ShloMosaic.TcCoe Idealize.SL.Sem
open scoped BigOperators

/-! ## The dense steps of the reference, index by index -/

section Dense
open Cert.ReferenceIdeal Cert.ReferenceIdeal.Facts₀

/-- The general product with the plain dimension numbers (left operand contracted on its second axis, right on its
    first, no batch axis) at entry `(r, j)`: the sum over `k` of `x (r, k) · w (k, j)`. -/
theorem dot_eq (x : FVec Ideal S50000x128 .f32) (w : FVec Ideal S128x128 .f32) :
    Host.dotGeneral dot_S50000x128_S128x128_S50000x128_1_0_0_1_n_n none x w = mm x w := by
  funext i
  simp only [Host.dotGeneral]
  rw [Ideal.dotGeneral_apply]
  exact Idealize.ShloMosaic.PlainDot.sum_contr 50000 128 128 x w i

/-- The bias broadcast to a one-row matrix and then to every row, added: the row broadcast read at `(r, j)` is the one-row
    matrix at `(0, j)` (its first extent is 1), which is the bias at `j`. -/
theorem bias_eq (a : FVec Ideal S50000x128 .f32) (b : FVec Ideal S128 .f32) :
    addf a (broadcastInDim S50000x128 ![0, 1] bcast_S1x128_S50000x128_0_1 (broadcastInDim S1x128 ![1] bcast_S128_S1x128_1 b)) = addRow a b := by
  funext i
  rw [addf_apply]
  rw [broadcastInDim_apply _ _ _ i (ix2 (n0 := 1) (n1 := 128) 0 (i 1)) (fun a => by
    match a with
    | ⟨0, _⟩ => rfl
    | ⟨1, _⟩ => rfl)]
  rw [broadcastInDim_apply _ _ _ (ix2 (n0 := 1) (n1 := 128) 0 (i 1)) (ix1 (n := 128) (i 1)) (fun a => by
    match a with
    | ⟨0, _⟩ => rfl)]
  rfl

/-- The maximum with the zero scalar broadcast to every entry: the broadcast read at any index is the scalar. -/
theorem relu_eq (a : FVec Ideal S50000x128 .f32) :
    maximumf a (broadcastInDim S50000x128 ![] bcast_S_S50000x128 (constant S_ .f32 0x00000000#32)) = relu a := by
  funext i
  rw [maximumf_apply]
  rw [broadcastInDim_apply _ _ _ i ix0 (fun a => a.elim0)]
  rfl

end Dense

/-! ## The message passing of the reference is the specification's

Each piece below is written once with the reference's shape records and once, on the right, by the specification's name,
which spells the same operation with the kernel's records. The records' fields are the same lists and their side
conditions are proofs, so each equation holds by unfolding; a later piece is stated over the earlier ones already named. -/

section Fold
open Cert.ReferenceIdeal Cert.ReferenceIdeal.Facts₀

/-- Row 0 of the edge list followed by `0 … 49999`. -/
theorem srcs_eq (e : IVec S2x800000 32) :
    concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0 = srcs e := rfl

/-- Row 1 of the edge list followed by `0 … 49999`. -/
theorem dsts_eq (e : IVec S2x800000 32) :
    concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0 = dsts e := rfl

/-- A negative node number gains 50000; any other is kept. -/
theorem wrap_eq (v : IVec S850000 32) :
    select (cmpi .slt v (broadcastInDim S850000 ![] bcast_S_S850000 (constantI S_ 32 0#32))) (addi v (broadcastInDim S850000 ![] bcast_S_S850000 (constantI S_ 32 50000#32))) v = wrap v := rfl

/-- The degrees: ones scatter-added at the targets into zeros. -/
theorem deg_eq (e : IVec S2x800000 32) :
    Host.scatterAdd scatter_S50000_S850000x1_S850000_n_0_0_1 (broadcastInDim S50000 ![] bcast_S_S50000 (constant S_ .f32 0x00000000#32)) (broadcastInDim S850000x1 ![0] bcast_S850000_S850000x1_0 (dsts e)) (broadcastInDim S850000 ![] bcast_S_S850000 (constant S_ .f32 0x3F800000#32)) = deg e := rfl

/-- The reciprocal square root of the degree where it is positive, zero elsewhere. -/
theorem dinv_eq (e : IVec S2x800000 32) :
    select (cmpf (F := Ideal) .ogt (deg e) (broadcastInDim S50000 ![] bcast_S_S50000 (constant S_ .f32 0x00000000#32))) (Host.rsqrt (deg e)) (broadcastInDim S50000 ![] bcast_S_S50000 (id (constant S_ .f32 0x00000000#32))) = dinv e := rfl

/-- The message weights: that power gathered at the sources times the same gathered at the targets. -/
theorem norm_eq (e : IVec S2x800000 32) :
    mulf (Host.gather gather_S50000_S850000x1_S850000_n_0_n_n_0_1_1 (dinv e) (broadcastInDim S850000x1 ![0] bcast_S850000_S850000x1_0 (wrap (srcs e)))) (Host.gather gather_S50000_S850000x1_S850000_n_0_n_n_0_1_1 (dinv e) (broadcastInDim S850000x1 ![0] bcast_S850000_S850000x1_0 (wrap (dsts e)))) = norm e := rfl

/-- One round over node rows `h`: the rows gathered at the sources, scaled by the weights, scatter-added at the targets. -/
theorem agg_eq (e : IVec S2x800000 32) (h : FVec Ideal S50000x128 .f32) :
    Host.scatterAdd scatter_S50000x128_S850000x1_S850000x128_1_0_0_1 (broadcastInDim S50000x128 ![] bcast_S_S50000x128 (constant S_ .f32 0x00000000#32)) (broadcastInDim S850000x1 ![0] bcast_S850000_S850000x1_0 (dsts e)) (mulf (Host.gather gather_S50000x128_S850000x1_S850000x128_1_0_n_n_0_1_1128 h (broadcastInDim S850000x1 ![0] bcast_S850000_S850000x1_0 (wrap (srcs e)))) (broadcastInDim S850000x128 ![0, 1] bcast_S850000x1_S850000x128_0_1 (broadcastInDim S850000x1 ![0] bcast_S850000_S850000x1_0 (norm e)))) = agg e h := rfl

end Fold

/-! ## The reference's result

The composed term is named from the inside out: the two edge lists, their wrapped forms, the degrees, their powers, the
message weights; then each product, each round of message passing, each bias row and the cut at zero. What is left is
`out` of the six arguments, unfolded once. -/

theorem ref_out (m : (ℓ : Loc Cert.ReferenceIdeal.nD Cert.ReferenceIdeal.τ Cert.ReferenceIdeal.sig) → Buf (Elt Ideal) ℓ) (c : Dev Cert.ReferenceIdeal.nD) :
    Cert.ReferenceIdeal.RunP.res_out0 (F := Ideal) m c
      = out (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) := by
  show Cert.ReferenceIdeal.RunP.res_main_v64 m c = _
  unfold Cert.ReferenceIdeal.RunP.res_main_v64
  rw [srcs_eq, dsts_eq]
  rw [wrap_eq, wrap_eq]
  rw [deg_eq]
  rw [dinv_eq]
  rw [norm_eq]
  rw [dot_eq, dot_eq, agg_eq, agg_eq, bias_eq, bias_eq, relu_eq]
  rfl

end Cert.Gcn

end
-- ==== Proof.lean ====
/-
  A two-layer graph convolution: the kernel's program against its plain reference, equal over the extended reals.

  Both programs compute, from the node features, the edge list and two layers' weights and biases, the function
  `Cert.Gcn.out`: per layer the features times the weight matrix, one round of message passing over the edges with the
  symmetric degree weights, and the bias added to every row, the first layer's output cut at zero. The message passing is
  the same gather and scatter-add operations applied to the same edge list in both programs, so it is carried as one
  function and never opened. The programs differ in the dense steps only: the kernel multiplies 2000 rows at a time, each
  block's entry the sum over `k` of `x (r, k) · w (k, j)` with its operands narrowed to a shorter float format (the identity
  on extended reals), and adds the bias held as a one-row matrix, block by block; the reference takes one whole product and
  adds the bias broadcast to every row. The blocks tile the rows, so block `t`'s entry `(p, q)` is the whole array's entry
  `(2000 t + p, q)`, and the two sides are the same sums and the same maxima, term by term: no law of arithmetic beyond
  that is used, and the inputs' finiteness is never opened.

  The frames of the two kernel programs are their generated launch proofs; the reference's is its run with the result
  dropped; the idealization rewrote nothing, so `preserves` is `True`.
-/
import proofs.«111916_j60876866453592_1_alg».proof.Defs
import proofs.«111916_j60876866453592_1_alg».proof.Proof.Gen.Kernel
import proofs.«111916_j60876866453592_1_alg».proof.Proof.Gen.Kernel.Frame
import proofs.«111916_j60876866453592_1_alg».proof.Proof.Gen.KernelIdeal
import proofs.«111916_j60876866453592_1_alg».proof.Proof.Gen.KernelIdeal.Frame
import proofs.«111916_j60876866453592_1_alg».proof.Proof.Gen.ReferenceIdeal
import proofs.«111916_j60876866453592_1_alg».proof.Proof.Gen.Pre_finite_inputs
import proofs.«111916_j60876866453592_1_alg».proof.Proof.KRun
import proofs.«111916_j60876866453592_1_alg».proof.Proof.KValue
import proofs.«111916_j60876866453592_1_alg».proof.Proof.RefRun
import proofs.«111916_j60876866453592_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- From memories agreeing on the six arguments both programs end with `Cert.Gcn.out` of them in their result arrays. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.Gcn.kernel_out m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.RunP.run (F := Ideal) m' ρ')
    obtain ⟨h0, h1, h2, h3, h4, h5⟩ := hagree c
    exact (Cert.Gcn.ref_out m' c).trans (by rw [h0, h1, h2, h3, h4, h5])

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
